-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x300 : Shape := ⟨2, ![524288, 300]⟩
abbrev S300x300 : Shape := ⟨2, ![300, 300]⟩
abbrev S300 : Shape := ⟨1, ![300]⟩
abbrev S300x1 : Shape := ⟨2, ![300, 1]⟩
abbrev S1 : Shape := ⟨1, ![1]⟩
abbrev S_ : Shape := ⟨0, ![]⟩

class Facts : Prop where
  bcast_S_S524288x300 : S_.BroadcastsInDim S524288x300 (![] : Fin 0 → Fin S524288x300.rank)
  reducesTo_S524288x300_S_d0_1 : S524288x300.ReducesTo [0, 1] S_
  h_S_ : 0 < S_.numel
  bcast_S_S300x300 : S_.BroadcastsInDim S300x300 (![] : Fin 0 → Fin S300x300.rank)
  reducesTo_S300x300_S_d0_1 : S300x300.ReducesTo [0, 1] S_
  bcast_S_S300 : S_.BroadcastsInDim S300 (![] : Fin 0 → Fin S300.rank)
  reducesTo_S300_S_d0 : S300.ReducesTo [0] S_
  bcast_S_S300x1 : S_.BroadcastsInDim S300x1 (![] : Fin 0 → Fin S300x1.rank)
  reducesTo_S300x1_S_d0_1 : S300x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S300 .f32) (main_arg5 : FVec F S300x1 .f32) (main_arg6 : FVec F S1 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S300 .f32 := Host.absf main_arg4
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S300x1 .f32 := Host.absf main_arg5
  let main_cst_8 : FVec F S_ .f32 := constant S_ .f32 0x7F800000#32
  let main_v25 : FVec F S300x1 .f32 := broadcastInDim S300x1 ![] bcast_S_S300x1 main_cst_8
  let main_v26 : IVec S300x1 1 := cmpf .olt main_v24 main_v25
  let main_c_9 : IVec S_ 1 := constantI S_ 1 1#1
  let main_v27 : IVec S_ 1 := (fun x v => Host.reduce IntOp.andi x v reducesTo_S300x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S524288x300 .f32) (main_arg1 : FVec F S300x300 .f32) (main_arg2 : FVec F S300 .f32) (main_arg3 : FVec F S300x300 .f32) (main_arg4 : FVec F S300 .f32) (main_arg5 : FVec F S300x1 .f32) (main_arg6 : FVec F S1 .f32) : IVec S_ 1 :=
  let main_v0 : FVec F S524288x300 .f32 := Host.absf main_arg0
  let main_cst : FVec F S_ .f32 := constant S_ .f32 0x7F800000#32
  let main_v1 : FVec F S524288x300 .f32 := broadcastInDim S524288x300 ![] bcast_S_S524288x300 main_cst
  let main_v2 : IVec S524288x300 1 := cmpf .olt main_v0 main_v1
  let main_c : IVec S_ 1 := constantI S_ 1 1#1
  let main_v3 : IVec S_ 1 := (fun x v => Host.reduce IntOp.andi x v reducesTo_S524288x300_S_d0_1 h_S_) main_v2 main_c
  let main_v4 : FVec F S300x300 .f32 := Host.absf main_arg1
  let main_cst_0 : FVec F S_ .f32 := constant S_ .f32 0x7F800000#32
  let main_v5 : FVec F S300x300 .f32 := broadcastInDim S300x300 ![] bcast_S_S300x300 main_cst_0
  let main_v6 : IVec S300x300 1 := cmpf .olt main_v4 main_v5
  let main_c_1 : IVec S_ 1 := constantI S_ 1 1#1
  let main_v7 : IVec S_ 1 := (fun x v => Host.reduce IntOp.andi x v reducesTo_S300x300_S_d0_1 h_S_) main_v6 main_c_1
  let main_v8 : IVec S_ 1 := andi main_v3 main_v7
  let main_v9 : FVec F S300 .f32 := Host.absf main_arg2
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S300x300 .f32 := Host.absf main_arg3
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg4 main_arg5 main_arg6 main_v13 main_v16
-- ==== Kernel.lean ====
abbrev S524288x300 : Shape := ⟨2, ![524288, 300]⟩
abbrev S300x300 : Shape := ⟨2, ![300, 300]⟩
abbrev S300 : Shape := ⟨1, ![300]⟩
abbrev S300x1 : Shape := ⟨2, ![300, 1]⟩
abbrev S1 : Shape := ⟨1, ![1]⟩
abbrev S1x300 : Shape := ⟨2, ![1, 300]⟩
abbrev S1x1 : Shape := ⟨2, ![1, 1]⟩
abbrev S524288x1 : Shape := ⟨2, ![524288, 1]⟩
abbrev S2048x300 : Shape := ⟨2, ![2048, 300]⟩
abbrev S2048x1 : Shape := ⟨2, ![2048, 1]⟩
abbrev S524288 : Shape := ⟨1, ![524288]⟩

abbrev nBuf : Space → Nat
  | .hbm => 12
  | .vmem => 10
  | .smem => 0
  | _ => 0

abbrev bufTy : (tb : Table) → Fin (tcTables nBuf tb) → BufTy
  | .hbm, ⟨0, _⟩ => ⟨S524288x300, .f32⟩
  | .hbm, ⟨1, _⟩ => ⟨S300x300, .f32⟩
  | .hbm, ⟨2, _⟩ => ⟨S300, .f32⟩
  | .hbm, ⟨3, _⟩ => ⟨S300x300, .f32⟩
  | .hbm, ⟨4, _⟩ => ⟨S300, .f32⟩
  | .hbm, ⟨5, _⟩ => ⟨S300x1, .f32⟩
  | .hbm, ⟨6, _⟩ => ⟨S1, .f32⟩
  | .hbm, ⟨7, _⟩ => ⟨S1x300, .f32⟩
  | .hbm, ⟨8, _⟩ => ⟨S1x300, .f32⟩
  | .hbm, ⟨9, _⟩ => ⟨S1x1, .f32⟩
  | .hbm, ⟨10, _⟩ => ⟨S524288x1, .f32⟩
  | .hbm, ⟨11, _⟩ => ⟨S524288, .f32⟩
  | .local _ .vmem, ⟨0, _⟩ => ⟨S2048x300, .f32⟩
  | .local _ .vmem, ⟨1, _⟩ => ⟨S2048x300, .f32⟩
  | .local _ .vmem, ⟨2, _⟩ => ⟨S300x300, .f32⟩
  | .local _ .vmem, ⟨3, _⟩ => ⟨S1x300, .f32⟩
  | .local _ .vmem, ⟨4, _⟩ => ⟨S300x300, .f32⟩
  | .local _ .vmem, ⟨5, _⟩ => ⟨S1x300, .f32⟩
  | .local _ .vmem, ⟨6, _⟩ => ⟨S300x1, .f32⟩
  | .local _ .vmem, ⟨7, _⟩ => ⟨S1x1, .f32⟩
  | .local _ .vmem, ⟨8, _⟩ => ⟨S2048x1, .f32⟩
  | .local _ .vmem, ⟨9, _⟩ => ⟨S2048x1, .f32⟩
  | _, _ => ⟨S524288x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S300_S1x300 : S300.ShapeCasts S1x300
  shapeCasts_S1_S1x1 : S1.ShapeCasts S1x1
  inb_S2048x300_S2048x300_0_0 : ∀ a, (![0, 0] : Fin 2 → Nat) a + S2048x300.size a ≤ S2048x300.size a
  h_S2048x300 : 0 < S2048x300.numel
  bitsLt_bf16_f32 : FTy.bits .bf16 < FTy.bits .f32
  inb_S300x300_S300x300_0_0 : ∀ a, (![0, 0] : Fin 2 → Nat) a + S300x300.size a ≤ S300x300.size a
  h_S300x300 : 0 < S300x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2048x300 : S1x300.Broadcasts S2048x300
  inb_S300x1_S300x1_0_0 : ∀ a, (![0, 0] : Fin 2 → Nat) a + S300x1.size a ≤ S300x1.size a
  h_S300x1 : 0 < S300x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S524288x1_S524288 : S524288x1.ShapeCasts S524288
  dot_S2048x300_S300x300_S2048x300_1_0_0_1_n_n_wf : DotDims.WF S2048x300 S300x300 S2048x300 [1] [0] [0] [1] [] []
  dot_S2048x300_S300x1_S2048x1_1_0_0_1_n_n_wf : DotDims.WF S2048x300 S300x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x300.size a ≤ S524288x300.size a
  hwx0_0 : ∀ i : grid0.Coords, EltTy.bits .f32 = 32 ∨ (Rect.block (s := S524288x300) S2048x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x300.size a ≤ S300x300.size a
  hwx0_1 : ∀ i : grid0.Coords, EltTy.bits .f32 = 32 ∨ (Rect.block (s := S300x300) S300x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x300.size a ≤ S300x300.size a
  hwx0_3 : ∀ i : grid0.Coords, EltTy.bits .f32 = 32 ∨ (Rect.block (s := S300x300) S300x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x1.size a ≤ S300x1.size a
  hwx0_5 : ∀ i : grid0.Coords, EltTy.bits .f32 = 32 ∨ (Rect.block (s := S300x1) S300x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S524288x1.size a
  hwx0_7 : ∀ i : grid0.Coords, EltTy.bits .f32 = 32 ∨ (Rect.block (s := S524288x1) S2048x1.size (cc0_transform_7 i) (hinb0_7 i)).WholeWords (EltTy.packing .f32)

variable [Facts₀]

def dot_S2048x300_S300x300_S2048x300_1_0_0_1_n_n : DotDims S2048x300 S300x300 S2048x300 where
  lhsContracting := [1]
  rhsContracting := [0]
  lhsNonContracting := [0]
  rhsNonContracting := [1]
  lhsBatch := []
  rhsBatch := []
  wf := dot_S2048x300_S300x300_S2048x300_1_0_0_1_n_n_wf
def dot_S2048x300_S300x1_S2048x1_1_0_0_1_n_n : DotDims S2048x300 S300x1 S2048x1 where
  lhsContracting := [1]
  rhsContracting := [0]
  lhsNonContracting := [0]
  rhsNonContracting := [1]
  lhsBatch := []
  rhsBatch := []
  wf := dot_S2048x300_S300x1_S2048x1_1_0_0_1_n_n_wf

abbrev win0_0 : Pipeline.Window sig grid0 :=
  Pipeline.Window.ofSpec (Memref.whole main_arg0) S2048x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S300x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S300x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S300x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S524288x300 : Shape := ⟨2, ![524288, 300]⟩
abbrev S300x300 : Shape := ⟨2, ![300, 300]⟩
abbrev S300 : Shape := ⟨1, ![300]⟩
abbrev S300x1 : Shape := ⟨2, ![300, 1]⟩
abbrev S1 : Shape := ⟨1, ![1]⟩
abbrev S1x300 : Shape := ⟨2, ![1, 300]⟩
abbrev S_ : Shape := ⟨0, ![]⟩
abbrev S524288x1 : Shape := ⟨2, ![524288, 1]⟩
abbrev S1x1 : Shape := ⟨2, ![1, 1]⟩
abbrev S524288 : Shape := ⟨1, ![524288]⟩

abbrev nBuf : Space → Nat
  | .hbm => 26
  | .vmem => 0
  | .smem => 0
  | _ => 0

abbrev bufTy : (tb : Table) → Fin (tcTables nBuf tb) → BufTy
  | .hbm, ⟨0, _⟩ => ⟨S524288x300, .f32⟩
  | .hbm, ⟨1, _⟩ => ⟨S300x300, .f32⟩
  | .hbm, ⟨2, _⟩ => ⟨S300, .f32⟩
  | .hbm, ⟨3, _⟩ => ⟨S300x300, .f32⟩
  | .hbm, ⟨4, _⟩ => ⟨S300, .f32⟩
  | .hbm, ⟨5, _⟩ => ⟨S300x1, .f32⟩
  | .hbm, ⟨6, _⟩ => ⟨S1, .f32⟩
  | .hbm, ⟨7, _⟩ => ⟨S524288x300, .f32⟩
  | .hbm, ⟨8, _⟩ => ⟨S1x300, .f32⟩
  | .hbm, ⟨9, _⟩ => ⟨S524288x300, .f32⟩
  | .hbm, ⟨10, _⟩ => ⟨S524288x300, .f32⟩
  | .hbm, ⟨11, _⟩ => ⟨S_, .f32⟩
  | .hbm, ⟨12, _⟩ => ⟨S524288x300, .f32⟩
  | .hbm, ⟨13, _⟩ => ⟨S524288x300, .f32⟩
  | .hbm, ⟨14, _⟩ => ⟨S524288x300, .f32⟩
  | .hbm, ⟨15, _⟩ => ⟨S1x300, .f32⟩
  | .hbm, ⟨16, _⟩ => ⟨S524288x300, .f32⟩
  | .hbm, ⟨17, _⟩ => ⟨S524288x300, .f32⟩
  | .hbm, ⟨18, _⟩ => ⟨S_, .f32⟩
  | .hbm, ⟨19, _⟩ => ⟨S524288x300, .f32⟩
  | .hbm, ⟨20, _⟩ => ⟨S524288x300, .f32⟩
  | .hbm, ⟨21, _⟩ => ⟨S524288x1, .f32⟩
  | .hbm, ⟨22, _⟩ => ⟨S1x1, .f32⟩
  | .hbm, ⟨23, _⟩ => ⟨S524288x1, .f32⟩
  | .hbm, ⟨24, _⟩ => ⟨S524288x1, .f32⟩
  | .hbm, ⟨25, _⟩ => ⟨S524288, .f32⟩
  | _, _ => ⟨S524288x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S300_S1x300_1 : S300.BroadcastsInDim S1x300 (![1] : Fin 1 → Fin S1x300.rank)
  bcast_S1x300_S524288x300_0_1 : S1x300.BroadcastsInDim S524288x300 (![0, 1] : Fin 2 → Fin S524288x300.rank)
  bcast_S_S524288x300 : S_.BroadcastsInDim S524288x300 (![] : Fin 0 → Fin S524288x300.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S524288x1_S524288 : S524288x1.ShapeCasts S524288
  dot_S524288x300_S300x300_S524288x300_1_0_0_1_n_n_wf : DotDims.WF S524288x300 S300x300 S524288x300 [1] [0] [0] [1] [] []
  dot_S524288x300_S300x1_S524288x1_1_0_0_1_n_n_wf : DotDims.WF S524288x300 S300x1 S524288x1 [1] [0] [0] [1] [] []

variable [Facts₀]

def dot_S524288x300_S300x300_S524288x300_1_0_0_1_n_n : DotDims S524288x300 S300x300 S524288x300 where
  lhsContracting := [1]
  rhsContracting := [0]
  lhsNonContracting := [0]
  rhsNonContracting := [1]
  lhsBatch := []
  rhsBatch := []
  wf := dot_S524288x300_S300x300_S524288x300_1_0_0_1_n_n_wf
def dot_S524288x300_S300x1_S524288x1_1_0_0_1_n_n : DotDims S524288x300 S300x1 S524288x1 where
  lhsContracting := [1]
  rhsContracting := [0]
  lhsNonContracting := [0]
  rhsNonContracting := [1]
  lhsBatch := []
  rhsBatch := []
  wf := dot_S524288x300_S300x1_S524288x1_1_0_0_1_n_n_wf

class Facts : Prop extends Facts₀ where

variable [Facts]
-- ==== Proof.KernelBlocks.lean ====
/-
  The kernel's windows, read.

  The grid has 256 points. At point t the window over x holds rows 2048·t … 2048·t + 2047 of x and the output window
  the same rows of the result column; the six small windows hold their whole arrays at every point. The three bias
  windows stage the one-row (one-entry) tables the host made from the bias vectors by a reshape, which keeps the
  row-major position: entry (0, j) of the table is entry j of the vector.
-/
import proofs.«127086_j86079734546997_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Where each window's block sits at point t: the window over x and the output window at block row t, every other
    window at block (0, 0). Decided over the 256 points. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The arrays the region finds -/

/-- A vector reshaped to a table of one row, at entry (0, j): the vector's entry j. -/
theorem row_table_apply {α : Type} (n : Nat) (x : (⟨1, ![n]⟩ : Shape).Idx → α)
    (h : (⟨1, ![n]⟩ : Shape).ShapeCasts ⟨2, ![1, n]⟩) (z : Fin 1) (j : Fin n) :
    shapeCast ⟨2, ![1, n]⟩ x h (ix2 z j) = x (ix1 j) := by
  refine shapeCast_apply x h (ix2 z j) (ix1 j) ?_
  rw [Shape.rowMajor_val_one, Shape.rowMajor_val_two]
  show j.val = z.val * n + j.val
  have hz : z.val = 0 := by have := z.isLt; omega
  rw [hz]; omega

/-- The first bias table as the region finds it: the host's reshape of the first bias vector. -/
theorem V_main_v0 (c : Dev nD) : (V m c main_v0 : S1x300.Idx → EReal)
    = shapeCast S1x300 (m ((c : Thread nD τ).loc main_arg2)) shapeCasts_S300_S1x300 := by
  show StableHlo.after hostOps0 (fun b => m (c, b)) (Proc.devRef .tc main_v0) = _
  after_results; rfl

/-- The second bias table as the region finds it. -/
theorem V_main_v1 (c : Dev nD) : (V m c main_v1 : S1x300.Idx → EReal)
    = shapeCast S1x300 (m ((c : Thread nD τ).loc main_arg4)) shapeCasts_S300_S1x300 := by
  show StableHlo.after hostOps0 (fun b => m (c, b)) (Proc.devRef .tc main_v1) = _
  after_results; rfl

/-- The read-out's bias table as the region finds it. -/
theorem V_main_v2 (c : Dev nD) : (V m c main_v2 : S1x1.Idx → EReal)
    = shapeCast S1x1 (m ((c : Thread nD τ).loc main_arg6)) shapeCasts_S1_S1x1 := by
  show StableHlo.after hostOps0 (fun b => m (c, b)) (Proc.devRef .tc main_v2) = _
  after_results; rfl

/-! ## Each window's block -/

/-- The block of x at point t, at entry (p, k): row 2048·t + p of x, column k. -/
theorem xblk_apply (c : Dev nD) (t : Fin cfg0.N) (p : Fin 2048) (k : Fin 300) (r : Fin 524288)
    (hr : r.val = 2048 * t.val + p.val) :
    (iblk m c 0 t : Vec Ideal S2048x300 .f32) (ix2 p k) = (m ((c : Thread nD τ).loc main_arg0) : S524288x300.Idx → EReal) (ix2 r k) := by
  obtain ⟨e0, e1, -⟩ := index_facts t
  unfold iblk
  rw [View.read_apply]
  show V m c main_arg0 _ = _
  rw [V_main_arg0]
  congr 1
  funext a
  apply Fin.ext
  match a with
  | ⟨0, _⟩ => show win0_0.index t (0 : Fin 2) * 2048 + 1 * p.val = r.val; rw [e0, hr]; omega
  | ⟨1, _⟩ => show win0_0.index t (1 : Fin 2) * 300 + 1 * k.val = k.val; rw [e1]; omega

/-- The first weight table's window holds the whole table at every point. -/
theorem blk1_eq (c : Dev nD) (t : Fin cfg0.N) :
    (iblk m c 1 t : Vec Ideal S300x300 .f32) = (V m c main_arg1 : S300x300.Idx → EReal) := by
  have e := index_facts t
  unfold iblk
  funext y
  rw [View.read_apply]
  show V m c main_arg1 _ = V m c main_arg1 y
  congr 1
  funext a
  apply Fin.ext
  match a with
  | ⟨0, _⟩ => show win0_1.index t (0 : Fin 2) * S300x300.size 0 + 1 * (y 0).val = (y 0).val; rw [e.2.2.1]; omega
  | ⟨1, _⟩ => show win0_1.index t (1 : Fin 2) * S300x300.size 1 + 1 * (y 1).val = (y 1).val; rw [e.2.2.2.1]; omega

/-- The first bias table's window holds the whole table at every point. -/
theorem blk2_eq (c : Dev nD) (t : Fin cfg0.N) :
    (iblk m c 2 t : Vec Ideal S1x300 .f32) = (V m c main_v0 : S1x300.Idx → EReal) := by
  have e := index_facts t
  unfold iblk
  funext y
  rw [View.read_apply]
  show V m c main_v0 _ = V m c main_v0 y
  congr 1
  funext a
  apply Fin.ext
  match a with
  | ⟨0, _⟩ => show win0_2.index t (0 : Fin 2) * S1x300.size 0 + 1 * (y 0).val = (y 0).val; rw [e.2.2.2.2.1]; omega
  | ⟨1, _⟩ => show win0_2.index t (1 : Fin 2) * S1x300.size 1 + 1 * (y 1).val = (y 1).val; rw [e.2.2.2.2.2.1]; omega

/-- The second weight table's window holds the whole table at every point. -/
theorem blk3_eq (c : Dev nD) (t : Fin cfg0.N) :
    (iblk m c 3 t : Vec Ideal S300x300 .f32) = (V m c main_arg3 : S300x300.Idx → EReal) := by
  have e := index_facts t
  unfold iblk
  funext y
  rw [View.read_apply]
  show V m c main_arg3 _ = V m c main_arg3 y
  congr 1
  funext a
  apply Fin.ext
  match a with
  | ⟨0, _⟩ => show win0_3.index t (0 : Fin 2) * S300x300.size 0 + 1 * (y 0).val = (y 0).val; rw [e.2.2.2.2.2.2.1]; omega
  | ⟨1, _⟩ => show win0_3.index t (1 : Fin 2) * S300x300.size 1 + 1 * (y 1).val = (y 1).val; rw [e.2.2.2.2.2.2.2.1]; omega

/-- The second bias table's window holds the whole table at every point. -/
theorem blk4_eq (c : Dev nD) (t : Fin cfg0.N) :
    (iblk m c 4 t : Vec Ideal S1x300 .f32) = (V m c main_v1 : S1x300.Idx → EReal) := by
  have e := index_facts t
  unfold iblk
  funext y
  rw [View.read_apply]
  show V m c main_v1 _ = V m c main_v1 y
  congr 1
  funext a
  apply Fin.ext
  match a with
  | ⟨0, _⟩ => show win0_4.index t (0 : Fin 2) * S1x300.size 0 + 1 * (y 0).val = (y 0).val; rw [e.2.2.2.2.2.2.2.2.1]; omega
  | ⟨1, _⟩ => show win0_4.index t (1 : Fin 2) * S1x300.size 1 + 1 * (y 1).val = (y 1).val; rw [e.2.2.2.2.2.2.2.2.2.1]; omega

/-- The read-out's weight table's window holds the whole table at every point. -/
theorem blk5_eq (c : Dev nD) (t : Fin cfg0.N) :
    (iblk m c 5 t : Vec Ideal S300x1 .f32) = (V m c main_arg5 : S300x1.Idx → EReal) := by
  have e := index_facts t
  unfold iblk
  funext y
  rw [View.read_apply]
  show V m c main_arg5 _ = V m c main_arg5 y
  congr 1
  funext a
  apply Fin.ext
  match a with
  | ⟨0, _⟩ => show win0_5.index t (0 : Fin 2) * S300x1.size 0 + 1 * (y 0).val = (y 0).val; rw [e.2.2.2.2.2.2.2.2.2.2.1]; omega
  | ⟨1, _⟩ => show win0_5.index t (1 : Fin 2) * S300x1.size 1 + 1 * (y 1).val = (y 1).val; rw [e.2.2.2.2.2.2.2.2.2.2.2.1]; omega

/-- The read-out's bias table's window holds the whole table at every point. -/
theorem blk6_eq (c : Dev nD) (t : Fin cfg0.N) :
    (iblk m c 6 t : Vec Ideal S1x1 .f32) = (V m c main_v2 : S1x1.Idx → EReal) := by
  have e := index_facts t
  unfold iblk
  funext y
  rw [View.read_apply]
  show V m c main_v2 _ = V m c main_v2 y
  congr 1
  funext a
  apply Fin.ext
  match a with
  | ⟨0, _⟩ => show win0_6.index t (0 : Fin 2) * S1x1.size 0 + 1 * (y 0).val = (y 0).val; rw [e.2.2.2.2.2.2.2.2.2.2.2.2.1]; omega
  | ⟨1, _⟩ => show win0_6.index t (1 : Fin 2) * S1x1.size 1 + 1 * (y 1).val = (y 1).val; rw [e.2.2.2.2.2.2.2.2.2.2.2.2.2.1]; omega

end Cert.KernelIdeal.Blocks

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.RowScore.lean ====
/-
  The score of one row.

  Both programs send a row u of 300 numbers through two rectified affine layers and one affine read-out:

    hidden W b u j = max (∑ k, u k · W k j + b j) 0          (a layer's j-th output)
    score u        = ∑ k, hidden W2 b2 (hidden W1 b1 u) k · W3 k + b3

  over the extended reals. The zero the rectifier compares with is kept as the value of the all-zero word, which is
  how both programs write it, so it is never evaluated.
-/
import Idealize.ShloMosaic.PureOps.Ideal
import Idealize.ShloMosaic.Lib.ValueIdx

noncomputable section

namespace Cert.RowScore

open Idealize.ShloMosaic Idealize.ShloMosaic.ValueIdx

/-- The rectifier's threshold: the value of the all-zero word. -/
abbrev zero : EReal := Ideal.ofBits .f32 0x00000000#32

/-- Output j of a rectified affine layer with weights W (input index first) and bias b, at the input row u. -/
def hidden (W : Fin 300 → Fin 300 → EReal) (b : Fin 300 → EReal) (u : Fin 300 → EReal) (j : Fin 300) : EReal :=
  max ((∑ k : Fin 300, u k * W k j) + b j) zero

/-- The score of the row u: two rectified layers, then the affine read-out with weights W3 and bias b3. -/
def score (W1 : Fin 300 → Fin 300 → EReal) (b1 : Fin 300 → EReal) (W2 : Fin 300 → Fin 300 → EReal) (b2 : Fin 300 → EReal)
    (W3 : Fin 300 → EReal) (b3 : EReal) (u : Fin 300 → EReal) : EReal :=
  (∑ k : Fin 300, hidden W2 b2 (hidden W1 b1 u) k * W3 k) + b3

/-- The scores of all 524288 rows of x as a one-column table: entry (r, q) is the score of row r, the weight tables read
    through their two coordinates and the biases through their one. -/
def scoreCol (x : (⟨2, ![524288, 300]⟩ : Shape).Idx → EReal) (W1 : (⟨2, ![300, 300]⟩ : Shape).Idx → EReal)
    (b1 : (⟨1, ![300]⟩ : Shape).Idx → EReal) (W2 : (⟨2, ![300, 300]⟩ : Shape).Idx → EReal)
    (b2 : (⟨1, ![300]⟩ : Shape).Idx → EReal) (W3 : (⟨2, ![300, 1]⟩ : Shape).Idx → EReal)
    (b3 : (⟨1, ![1]⟩ : Shape).Idx → EReal) : (⟨2, ![524288, 1]⟩ : Shape).Idx → EReal :=
  fun i => score (fun k j => W1 (ix2 k j)) (fun j => b1 (ix1 j)) (fun k j => W2 (ix2 k j)) (fun j => b2 (ix1 j))
    (fun k => W3 (ix2 k (i 1))) (b3 (ix1 0)) (fun k => x (ix2 (i 0) k))

end Cert.RowScore

end
-- ==== Proof.BlockLayers.lean ====
/-
  The kernel's three layers on a block of M rows, read at an entry.

  On a block h of M rows the kernel forms  max (h · W + c, 0)  with the bias c held as a one-row table spread over the
  rows, the product taken into a zero accumulator after both factors pass through a change of float format (the
  identity on the extended reals). Entry (p, j) is therefore the rectified layer's output j at row p of the block.
  The read-out  h · W3 + c3  with a one-column weight table and a one-entry bias is the same without the rectifier.
-/
import Idealize.ShloMosaic.Lib.Pipeline.Value
import Idealize.ShloMosaic.Lib.ValueIdx
import Idealize.ShloMosaic.PureOps.Ideal.Laws
import proofs.«127086_j86079734546997_1_alg».proof.Proof.LibPlainDot
import proofs.«127086_j86079734546997_1_alg».proof.Proof.RowScore

noncomputable section

namespace Cert.BlockLayers

open Idealize.ShloMosaic Idealize.ShloMosaic.ValueIdx Cert.RowScore

variable {M : Nat}

/-- A one-row table spread over M rows, at entry (p, j): the table's entry (0, j). -/
theorem spread_row (c : (⟨2, ![1, 300]⟩ : Shape).Idx → EReal) (hb : (⟨2, ![1, 300]⟩ : Shape).Broadcasts ⟨2, ![M, 300]⟩)
    (p : Fin M) (j : Fin 300) : broadcastTo ⟨2, ![M, 300]⟩ c hb (ix2 p j) = c (ix2 0 j) := by
  refine broadcastTo_apply c hb (ix2 p j) (ix2 0 j) fun a => ?_
  match a with
  | ⟨0, _⟩ => show 0 = if (1 : Nat) = 1 then 0 else _; rw [if_pos rfl]
  | ⟨1, _⟩ => show j.val = if (300 : Nat) = 1 then 0 else j.val; rw [if_neg (by decide)]

/-- A one-entry table spread over M rows of one column, at entry (p, q): the table's entry. -/
theorem spread_one (c : (⟨2, ![1, 1]⟩ : Shape).Idx → EReal) (hb : (⟨2, ![1, 1]⟩ : Shape).Broadcasts ⟨2, ![M, 1]⟩)
    (p : Fin M) (q : Fin 1) : broadcastTo ⟨2, ![M, 1]⟩ c hb (ix2 p q) = c (ix2 0 0) := by
  refine broadcastTo_apply c hb (ix2 p q) (ix2 0 0) fun a => ?_
  match a with
  | ⟨0, _⟩ => show 0 = if (1 : Nat) = 1 then 0 else _; rw [if_pos rfl]
  | ⟨1, _⟩ => show 0 = if (1 : Nat) = 1 then 0 else _; rw [if_pos rfl]

/-- A rectified layer of the kernel on a block of M rows, at entry (p, j). -/
theorem layer_apply (d : DotDims ⟨2, ![M, 300]⟩ ⟨2, ![300, 300]⟩ ⟨2, ![M, 300]⟩)
    (hlc : d.lhsContracting = [1]) (hrc : d.rhsContracting = [0])
    (hln : d.lhsNonContracting = [0]) (hrn : d.rhsNonContracting = [1])
    (hlb : d.lhsBatch = []) (hrb : d.rhsBatch = [])
    (h : FVec Ideal ⟨2, ![M, 300]⟩ .f32) (w : FVec Ideal ⟨2, ![300, 300]⟩ .f32) (c : FVec Ideal ⟨2, ![1, 300]⟩ .f32)
    (hs : (⟨2, ![1, 300]⟩ : Shape).ShapeCasts ⟨2, ![1, 300]⟩) (hb : (⟨2, ![1, 300]⟩ : Shape).Broadcasts ⟨2, ![M, 300]⟩)
    (h1 h2 : FTy.bf16.bits < FTy.f32.bits) (p : Fin M) (j : Fin 300) :
    maximumf (addf (matmul d none (truncf .bf16 h h1) (truncf .bf16 w h2) (constant ⟨2, ![M, 300]⟩ .f32 0x00000000#32))
        (broadcastTo ⟨2, ![M, 300]⟩ (shapeCast ⟨2, ![1, 300]⟩ c hs) hb))
      (broadcast ⟨2, ![M, 300]⟩ (Scalar.ofBits .f32 0x00000000#32)) (ix2 p j)
      = hidden (fun k j => w (ix2 k j)) (fun j => c (ix2 0 j)) (fun k => h (ix2 p k)) j := by
  rw [maximumf_apply, addf_apply, shapeCast_self, spread_row, broadcast_apply]
  show max (FloatOps.matmul d none _ _ _ (ix2 p j) + _) _ = _
  rw [Cert.LibPlainDot.matmul_zero_apply d hlc hrc hln hrn hlb hrb]
  rfl

/-- The kernel's read-out on a block of M rows, at entry (p, q) of its one column. -/
theorem readout_apply (d : DotDims ⟨2, ![M, 300]⟩ ⟨2, ![300, 1]⟩ ⟨2, ![M, 1]⟩)
    (hlc : d.lhsContracting = [1]) (hrc : d.rhsContracting = [0])
    (hln : d.lhsNonContracting = [0]) (hrn : d.rhsNonContracting = [1])
    (hlb : d.lhsBatch = []) (hrb : d.rhsBatch = [])
    (h : FVec Ideal ⟨2, ![M, 300]⟩ .f32) (w : FVec Ideal ⟨2, ![300, 1]⟩ .f32) (c : FVec Ideal ⟨2, ![1, 1]⟩ .f32)
    (hs : (⟨2, ![1, 1]⟩ : Shape).ShapeCasts ⟨2, ![1, 1]⟩) (hb : (⟨2, ![1, 1]⟩ : Shape).Broadcasts ⟨2, ![M, 1]⟩)
    (h1 h2 : FTy.bf16.bits < FTy.f32.bits) (p : Fin M) (q : Fin 1) :
    addf (matmul d none (truncf .bf16 h h1) (truncf .bf16 w h2) (constant ⟨2, ![M, 1]⟩ .f32 0x00000000#32))
        (broadcastTo ⟨2, ![M, 1]⟩ (shapeCast ⟨2, ![1, 1]⟩ c hs) hb) (ix2 p q)
      = (∑ k : Fin 300, h (ix2 p k) * w (ix2 k q)) + c (ix2 0 0) := by
  rw [addf_apply, shapeCast_self, spread_one]
  show FloatOps.matmul d none _ _ _ (ix2 p q) + _ = _
  rw [Cert.LibPlainDot.matmul_zero_apply d hlc hrc hln hrn hlb hrb]
  rfl

end Cert.BlockLayers

end
-- ==== Proof.BlockScore.lean ====
/-
  What the kernel stores for a block, read at an entry.

  The value the body stores for a block of 2048 rows is the read-out of the second rectified layer of the first
  rectified layer of the block. Its entry (p, q), q the one column, is the score of row p of the block: each layer's
  entry (p, j) depends on row p of the layer before only.
-/
import proofs.«127086_j86079734546997_1_alg».proof.Proof.Gen.KernelIdeal.Skeleton
import proofs.«127086_j86079734546997_1_alg».proof.Proof.BlockLayers

noncomputable section

namespace Cert.KernelIdeal.BlockScore

open Idealize.ShloMosaic Idealize.ShloMosaic.ValueIdx Cert.KernelIdeal Cert.KernelIdeal.Gen Cert.RowScore Cert.BlockLayers

/-- Entry (p, q) of the stored value is the score of row p of the block of x, with the weight tables as loaded and the
    biases read off their one-row (one-entry) tables. -/
theorem pay_apply (x0 : Vec Ideal S2048x300 .f32) (w1 : Vec Ideal S300x300 .f32) (c1 : Vec Ideal S1x300 .f32)
    (w2 : Vec Ideal S300x300 .f32) (c2 : Vec Ideal S1x300 .f32) (w3 : Vec Ideal S300x1 .f32) (c3 : Vec Ideal S1x1 .f32)
    (p : Fin 2048) (q : Fin 1) :
    k0_pay1 x0 w1 c1 w2 c2 w3 c3 (ix2 p q)
      = score (fun k j => w1 (ix2 k j)) (fun j => c1 (ix2 0 j)) (fun k j => w2 (ix2 k j)) (fun j => c2 (ix2 0 j))
          (fun k => w3 (ix2 k q)) (c3 (ix2 0 0)) (fun k => x0 (ix2 p k)) := by
  unfold k0_pay1
  refine (readout_apply dot_S2048x300_S300x1_S2048x1_1_0_0_1_n_n rfl rfl rfl rfl rfl rfl _ w3 c3 _ _ _ _ p q).trans ?_
  unfold score
  refine congrArg (· + c3 (ix2 0 0)) (Finset.sum_congr rfl fun k _ => congrArg (· * w3 (ix2 k q)) ?_)
  refine (layer_apply dot_S2048x300_S300x300_S2048x300_1_0_0_1_n_n rfl rfl rfl rfl rfl rfl _ w2 c2 _ _ _ _ p k).trans ?_
  refine congrArg (fun u => hidden (fun k j => w2 (ix2 k j)) (fun j => c2 (ix2 0 j)) u k) (funext fun k' => ?_)
  exact layer_apply dot_S2048x300_S300x300_S2048x300_1_0_0_1_n_n rfl rfl rfl rfl rfl rfl x0 w1 c1 _ _ _ _ p k'

end Cert.KernelIdeal.BlockScore

end
-- ==== Proof.KernelArray.lean ====
/-
  The kernel's result array.

  Point t writes back, as rows 2048·t … 2048·t + 2047 of the result column, the scores of the same rows of x: the stored
  value's entry (p, q) is the score of row p of the block, and that row is row 2048·t + p of x. The 256 blocks tile
  the column, so after the run it holds the scores of all rows; the host's closing reshape lays the column out as a
  vector.
-/
import proofs.«127086_j86079734546997_1_alg».proof.Proof.KernelBlocks
import proofs.«127086_j86079734546997_1_alg».proof.Proof.BlockScore

noncomputable section

namespace Cert.KernelIdeal.Array

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.BlockScore Cert.RowScore

variable (m : (ℓ : Loc nD τ sig) → Buf (Elt Ideal) ℓ) (ρ : Dev nD → PrngReg)

theorem hz : (![0, 0] : Fin 2 → Nat) = fun _ => 0 := funext fun a => by fin_cases a <;> rfl

/-- The scores of all rows of x as a column, of the argument arrays as launched on core c. -/
abbrev column (c : Dev nD) : S524288x1.Idx → EReal :=
  scoreCol (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What point t writes back is block t of the column of scores. -/
theorem flushed_eq (c : Dev nD) (t : Fin cfg0.N) :
    (dats m 0 c).flushed 7 t = ((cfg0.win 7).blk t).view.read (Elt Ideal) (column m c) := by
  show (cfg0.win 7).cut (grid0.coords t) ((dats m 0 c).after 7 t) = _
  rw [after0_7]
  unfold out0_7
  rw [View.canon_unit_zero hz]
  simp only [View.ld_unit_zero (S := S2048x300) hz, View.ld_unit_zero (S := S300x300) hz, View.ld_unit_zero (S := S1x300) hz,
    View.ld_unit_zero (S := S300x1) hz, View.ld_unit_zero (S := S1x1) hz]
  funext j
  obtain ⟨p, q, rfl⟩ : ∃ (p : Fin 2048) (q : Fin 1), j = ix2 p q := ⟨j 0, j 1, eq_ix2 j⟩
  obtain ⟨r, hr⟩ : ∃ r : Fin 524288, r.val = 2048 * t.val + p.val :=
    ⟨⟨2048 * t.val + p.val, by
      have ht := t.isLt
      have hN : cfg0.N = 256 := N_0
      have := p.isLt; omega⟩, rfl⟩
  have hemb : ((cfg0.win 7).blk t).view.emb (ix2 p q) = (ix2 r q : S524288x1.Idx) := by
    obtain ⟨-, -, -, -, -, -, -, -, -, -, -, -, -, -, e0, e1⟩ := index_facts t
    funext a
    apply Fin.ext
    match a with
    | ⟨0, _⟩ => show win0_7.index t (0 : Fin 2) * 2048 + 1 * p.val = r.val; rw [e0, hr]; omega
    | ⟨1, _⟩ => show win0_7.index t (1 : Fin 2) * 1 + 1 * q.val = q.val; rw [e1]; omega
  show _ = column m c (((cfg0.win 7).blk t).view.emb (ix2 p q))
  rw [hemb]
  refine (pay_apply (iblk m c 0 t) (iblk m c 1 t) (iblk m c 2 t) (iblk m c 3 t) (iblk m c 4 t) (iblk m c 5 t) (iblk m c 6 t) p q).trans ?_
  have hx : (fun k => (iblk m c 0 t : Vec Ideal S2048x300 .f32) (ix2 p k))
      = fun k => (m ((c : Thread nD τ).loc main_arg0) : S524288x300.Idx → EReal) (ix2 r k) :=
    funext fun k => xblk_apply m c t p k r hr
  rw [hx, blk1_eq m c t, blk2_eq m c t, blk3_eq m c t, blk4_eq m c t, blk5_eq m c t, blk6_eq m c t,
    V_main_arg1, V_main_arg3, V_main_arg5, V_main_v0, V_main_v1, V_main_v2]
  simp only [row_table_apply]
  rfl

/-- An index of the column is in point t's block iff each coordinate is in the block's range on its axis. -/
theorem mem_blk (t : Fin cfg0.N) (i : S524288x1.Idx) :
    i ∈ ((cfg0.win 7).blk t).view.set ↔ ∀ a : Fin 2, win0_7.index t a * S2048x1.size a ≤ (i a).val
      ∧ (i a).val < win0_7.index t a * S2048x1.size a + S2048x1.size a := by
  show i ∈ ((View.whole main_v3).slice (win0_7.rect t)).set ↔ _
  rw [View.set_slice_whole, Rect.mem_set_unit]
  exact Iff.rfl

/-- After the run the result column holds the scores of all rows: row r lies in the block of point r / 2048. -/
theorem final (c : Dev nD) : (dats m 0 c).arrAt 7 cfg0.N = column m c :=
  (dats m 0 c).arrAt_eq_of_cover 7 (column m c) (fun t _ => flushed_eq m c t) fun i => by
    have hi0 : (i 0).val < 524288 := (i 0).isLt
    have hi1 : (i 1).val < 1 := (i 1).isLt
    have hN : cfg0.N = 256 := N_0
    obtain ⟨t, ht⟩ : ∃ t : Fin cfg0.N, t.val = (i 0).val / 2048 := ⟨⟨(i 0).val / 2048, by omega⟩, rfl⟩
    obtain ⟨-, -, -, -, -, -, -, -, -, -, -, -, -, -, e0, e1⟩ := index_facts t
    refine ⟨t, flush0_7 t, ?_⟩
    rw [mem_blk]
    intro a
    match a with
    | ⟨0, _⟩ =>
      show win0_7.index t (0 : Fin 2) * 2048 ≤ (i 0).val ∧ (i 0).val < win0_7.index t (0 : Fin 2) * 2048 + 2048
      rw [e0, ht]; omega
    | ⟨1, _⟩ =>
      show win0_7.index t (1 : Fin 2) * 1 ≤ (i 1).val ∧ (i 1).val < win0_7.index t (1 : Fin 2) * 1 + 1
      rw [e1]; omega

/-- The result vector after the host's closing reshape: the column of scores laid out as a vector. -/
theorem result_eq (c : Dev nD) :
    Pipeline.afterTail₀ cfgs (dats m) 0 (V0 m) [hostOps1] c main_v4
      = shapeCast S524288 (column m c) shapeCasts_S524288x1_S524288 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = column m c := (Pipeline.withArrays_arr spec0 launch0.win.arr_inj c _ _ 7).trans (final m c)
  rw [e]
  rfl

/-- The run, read: the result vector ends at the scores of all rows laid out as a vector, the arguments unchanged. -/
theorem run : θ_run defs (onTc (τ := τ) (main (F := Ideal))) ⟨m, fun _ => 0, ρ⟩ fun r => ∀ c : Dev nD,
      r.2.mem ((c.tc : Thread nD τ).loc main_v4) = shapeCast S524288 (column m c) shapeCasts_S524288x1_S524288
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩)
    (run_main m ρ)

end Cert.KernelIdeal.Array

end
-- ==== Proof.ReferenceScore.lean ====
/-
  The reference's result, read.

  The reference computes the same three layers on all 524288 rows at once: a product with the weight table, the bias
  spread over the rows, the rectifier against a zero spread over the table, twice, then the read-out; its closing
  reshape lays the one-column result out as a vector. Read one operation at a time, entry (r, j) of each rectified
  stage is the layer's output j at row r of the stage before, so entry (r, q) of the one-column result is the score of
  row r of x.
-/
import proofs.«127086_j86079734546997_1_alg».proof.Proof.Gen.ReferenceIdeal.Read
import proofs.«127086_j86079734546997_1_alg».proof.Proof.RowScore

noncomputable section

namespace Cert.ReferenceIdeal.Score

open Idealize.ShloMosaic Idealize.ShloMosaic.ValueIdx
open Cert.ReferenceIdeal Cert.ReferenceIdeal.Read Cert.RowScore

variable (x0 : S524288x300.Idx → EReal) (x1 : S300x300.Idx → EReal) (x2 : S300.Idx → EReal)
  (x3 : S300x300.Idx → EReal) (x4 : S300.Idx → EReal) (x5 : S300x1.Idx → EReal) (x6 : S1.Idx → EReal)

/-- The first rectified stage at entry (r, j): the first layer's output j at row r of x. -/
theorem stage1_apply (r : Fin 524288) (j : Fin 300) :
    val_main_v4 (F := Ideal) x0 x1 x2 (ix2 r j)
      = hidden (fun k j => x1 (ix2 k j)) (fun j => x2 (ix1 j)) (fun k => x0 (ix2 r k)) j := by
  have el : ∀ k : Fin 300, lidx_main_v0 (ix2 r j) k = ix2 r k := fun k => funext fun a => Fin.ext (by
    match a with | ⟨0, _⟩ => rfl | ⟨1, _⟩ => rfl)
  have er : ∀ k : Fin 300, ridx_main_v0 (ix2 r j) k = ix2 k j := fun k => funext fun a => Fin.ext (by
    match a with | ⟨0, _⟩ => rfl | ⟨1, _⟩ => rfl)
  have eb : idx_main_v1 (idx_main_v2 (ix2 r j)) = ix1 j := funext fun a => Fin.ext (by
    match a with | ⟨0, _⟩ => rfl)
  rw [val_main_v4_apply, val_main_v3_apply, val_main_v0_apply, val_main_v2_apply, val_main_v1_apply,
    val_main_call0_v0_apply, val_main_call0_cst_apply]
  simp only [el, er, eb]
  rfl

/-- The second rectified stage at entry (r, j): the second layer's output j at the first layer's outputs at row r. -/
theorem stage2_apply (r : Fin 524288) (j : Fin 300) :
    val_main_v9 (F := Ideal) x0 x1 x2 x3 x4 (ix2 r j)
      = hidden (fun k j => x3 (ix2 k j)) (fun j => x4 (ix1 j))
          (hidden (fun k j => x1 (ix2 k j)) (fun j => x2 (ix1 j)) (fun k => x0 (ix2 r k))) j := by
  have el : ∀ k : Fin 300, lidx_main_v5 (ix2 r j) k = ix2 r k := fun k => funext fun a => Fin.ext (by
    match a with | ⟨0, _⟩ => rfl | ⟨1, _⟩ => rfl)
  have er : ∀ k : Fin 300, ridx_main_v5 (ix2 r j) k = ix2 k j := fun k => funext fun a => Fin.ext (by
    match a with | ⟨0, _⟩ => rfl | ⟨1, _⟩ => rfl)
  have eb : idx_main_v6 (idx_main_v7 (ix2 r j)) = ix1 j := funext fun a => Fin.ext (by
    match a with | ⟨0, _⟩ => rfl)
  rw [val_main_v9_apply, val_main_v8_apply, val_main_v5_apply, val_main_v7_apply, val_main_v6_apply,
    val_main_call1_v0_apply, val_main_call1_cst_apply]
  simp only [el, er, eb, stage1_apply]
  rfl

/-- The one-column result is the column of scores. -/
theorem column_eq : val_main_v13 (F := Ideal) x0 x1 x2 x3 x4 x5 x6 = scoreCol x0 x1 x2 x3 x4 x5 x6 := by
  funext i
  obtain ⟨r, q, rfl⟩ : ∃ (r : Fin 524288) (q : Fin 1), i = ix2 r q := ⟨i 0, i 1, eq_ix2 i⟩
  have el : ∀ k : Fin 300, lidx_main_v10 (ix2 r q) k = ix2 r k := fun k => funext fun a => Fin.ext (by
    match a with | ⟨0, _⟩ => rfl | ⟨1, _⟩ => rfl)
  have er : ∀ k : Fin 300, ridx_main_v10 (ix2 r q) k = ix2 k q := fun k => funext fun a => Fin.ext (by
    match a with | ⟨0, _⟩ => rfl | ⟨1, _⟩ => rfl)
  have eb : idx_main_v11 (idx_main_v12 (ix2 r q)) = ix1 0 := funext fun a => Fin.ext (by
    match a with | ⟨0, _⟩ => rfl)
  rw [val_main_v13_apply, val_main_v10_apply, val_main_v12_apply, val_main_v11_apply]
  simp only [el, er, eb, stage2_apply]
  rfl

/-- The reference's result vector: the column of scores laid out as a vector. -/
theorem result_eq : val_main_v14 (F := Ideal) x0 x1 x2 x3 x4 x5 x6
    = shapeCast S524288 (scoreCol x0 x1 x2 x3 x4 x5 x6) Facts₀.shapeCasts_S524288x1_S524288 := by
  unfold val_main_v14
  rw [column_eq]

end Cert.ReferenceIdeal.Score

end
-- ==== Proof.lean ====
/- A three-layer perceptron scored row by row: for every row u of x,

     score u = relu (relu (u · W1 + b1) · W2 + b2) · W3 + b3,

   the kernel 2048 rows at a time over a grid of 256 points, the reference on all 524288 rows at once.
   Read on the extended reals the kernel's changes of float format are the identity and each of its products into a zero
   accumulator is the plain sum over the contracted index, which is also what the reference's product is; the rectifier is
   max against the value of the same all-zero word on both sides. Entry (p, q) of what a point stores is the score of
   row p of its block of x, that is of row 2048·t + p of x; the 256 blocks tile the result column; both programs then lay the
   column out as a vector by the same reshape. No law beyond reading the sums is used, so the finiteness of the inputs
   is never opened. The three frames are the generated ones (the reference's from its generated run), and the
   idealization rewrote nothing. -/
import proofs.«127086_j86079734546997_1_alg».proof.Defs
import proofs.«127086_j86079734546997_1_alg».proof.Proof.Gen.Kernel
import proofs.«127086_j86079734546997_1_alg».proof.Proof.Gen.Kernel.Skeleton
import proofs.«127086_j86079734546997_1_alg».proof.Proof.Gen.Kernel.Launch
import proofs.«127086_j86079734546997_1_alg».proof.Proof.Gen.Kernel.Points
import proofs.«127086_j86079734546997_1_alg».proof.Proof.Gen.Kernel.Frame
import proofs.«127086_j86079734546997_1_alg».proof.Proof.Gen.KernelIdeal
import proofs.«127086_j86079734546997_1_alg».proof.Proof.Gen.KernelIdeal.Skeleton
import proofs.«127086_j86079734546997_1_alg».proof.Proof.Gen.KernelIdeal.Launch
import proofs.«127086_j86079734546997_1_alg».proof.Proof.Gen.KernelIdeal.Points
import proofs.«127086_j86079734546997_1_alg».proof.Proof.Gen.KernelIdeal.Frame
import proofs.«127086_j86079734546997_1_alg».proof.Proof.Gen.ReferenceIdeal
import proofs.«127086_j86079734546997_1_alg».proof.Proof.Gen.Pre_finite_inputs
import proofs.«127086_j86079734546997_1_alg».proof.Proof.Gen.ReferenceIdeal.Run
import proofs.«127086_j86079734546997_1_alg».proof.Proof.Gen.ReferenceIdeal.Read
import proofs.«127086_j86079734546997_1_alg».proof.Proof.KernelArray
import proofs.«127086_j86079734546997_1_alg».proof.Proof.ReferenceScore
import Idealize.ShloMosaic.Adequacy
import Idealize.ShloMosaic.Init

noncomputable section

namespace Cert.Proof

open Idealize.ShloMosaic Idealize.SL.Sem Cert.Kernel

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the scores of all rows of x laid out as a vector: the kernel's result column read off its
    frame run block by block, the reference's one operation at a time, of arguments that agree. -/
theorem algebraic : Cert.algebraic_KernelIdeal_ReferenceIdeal := by
  intro m ρ m' ρ' _ hagree
  refine ⟨fun c => shapeCast Cert.KernelIdeal.S524288 (Cert.KernelIdeal.Array.column m c) Cert.KernelIdeal.Facts₀.shapeCasts_S524288x1_S524288,
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Score.result_eq]
  obtain ⟨a0, a1, a2, a3, a4, a5, a6⟩ := hagree c
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
